-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel

variable [Facts]

def fn {F : FTy → Type} [FloatOps F] (main_arg0 : FVec F S16x80x128x128 .f32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  main_v3
-- ==== Kernel.lean ====
abbrev S16x80x128x128 : Shape := ⟨4, ![16, 80, 128, 128]⟩
abbrev S1280x128x128 : Shape := ⟨3, ![1280, 128, 128]⟩
abbrev S40x128x128 : Shape := ⟨3, ![40, 128, 128]⟩
abbrev S40x130x130 : Shape := ⟨3, ![40, 130, 130]⟩

abbrev nBuf : Space → Nat
  | .hbm => 4
  | .vmem => 5
  | .smem => 0
  | _ => 0

abbrev bufTy : (tb : Table) → Fin (tcTables nBuf tb) → BufTy
  | .hbm, ⟨0, _⟩ => ⟨S16x80x128x128, .f32⟩
  | .hbm, ⟨1, _⟩ => ⟨S1280x128x128, .f32⟩
  | .hbm, ⟨2, _⟩ => ⟨S1280x128x128, .f32⟩
  | .hbm, ⟨3, _⟩ => ⟨S16x80x128x128, .f32⟩
  | .local _ .vmem, ⟨0, _⟩ => ⟨S40x128x128, .f32⟩
  | .local _ .vmem, ⟨1, _⟩ => ⟨S40x128x128, .f32⟩
  | .local _ .vmem, ⟨2, _⟩ => ⟨S40x128x128, .f32⟩
  | .local _ .vmem, ⟨3, _⟩ => ⟨S40x128x128, .f32⟩
  | .local _ .vmem, ⟨4, _⟩ => ⟨S40x130x130, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S40x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x128x128_S1280x128x128 : S16x80x128x128.ShapeCasts S1280x128x128
  inb_S40x130x130_S40x130x130_0_0_0 : ∀ a, (![0, 0, 0] : Fin 3 → Nat) a + S40x130x130.size a ≤ S40x130x130.size a
  h_S40x130x130 : 0 < S40x130x130.numel
  shapeCasts_S40x130x130_S40x130x130 : S40x130x130.ShapeCasts S40x130x130
  inb_S40x128x128_S40x128x128_0_0_0 : ∀ a, (![0, 0, 0] : Fin 3 → Nat) a + S40x128x128.size a ≤ S40x128x128.size a
  h_S40x128x128 : 0 < S40x128x128.numel
  shapeCasts_S40x128x128_S40x128x128 : S40x128x128.ShapeCasts S40x128x128
  inb_S40x130x130_S40x128x128_0_1_1 : ∀ a, (![0, 1, 1] : Fin 3 → Nat) a + S40x128x128.size a ≤ S40x130x130.size a
  inb_S40x130x130_S40x128x128_0_0_0 : ∀ a, (![0, 0, 0] : Fin 3 → Nat) a + S40x128x128.size a ≤ S40x130x130.size a
  inb_S40x130x130_S40x128x128_0_0_1 : ∀ a, (![0, 0, 1] : Fin 3 → Nat) a + S40x128x128.size a ≤ S40x130x130.size a
  inb_S40x130x130_S40x128x128_0_0_2 : ∀ a, (![0, 0, 2] : Fin 3 → Nat) a + S40x128x128.size a ≤ S40x130x130.size a
  inb_S40x130x130_S40x128x128_0_1_0 : ∀ a, (![0, 1, 0] : Fin 3 → Nat) a + S40x128x128.size a ≤ S40x130x130.size a
  inb_S40x130x130_S40x128x128_0_1_2 : ∀ a, (![0, 1, 2] : Fin 3 → Nat) a + S40x128x128.size a ≤ S40x130x130.size a
  inb_S40x130x130_S40x128x128_0_2_0 : ∀ a, (![0, 2, 0] : Fin 3 → Nat) a + S40x128x128.size a ≤ S40x130x130.size a
  inb_S40x130x130_S40x128x128_0_2_1 : ∀ a, (![0, 2, 1] : Fin 3 → Nat) a + S40x128x128.size a ≤ S40x130x130.size a
  inb_S40x130x130_S40x128x128_0_2_2 : ∀ a, (![0, 2, 2] : Fin 3 → Nat) a + S40x128x128.size a ≤ S40x130x130.size a
  shapeCasts_S1280x128x128_S16x80x128x128 : S1280x128x128.ShapeCasts S16x80x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x128x128.size a ≤ S1280x128x128.size a
  hwx0_0 : ∀ i : grid0.Coords, EltTy.bits .f32 = 32 ∨ (Rect.block (s := S1280x128x128) S40x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x128x128.size a ≤ S1280x128x128.size a
  hwx0_1 : ∀ i : grid0.Coords, EltTy.bits .f32 = 32 ∨ (Rect.block (s := S1280x128x128) S40x128x128.size (cc0_transform_1 i) (hinb0_1 i)).WholeWords (EltTy.packing .f32)

variable [Facts₀]

abbrev win0_0 : Pipeline.Window sig grid0 :=
  Pipeline.Window.ofSpec (Memref.whole main_v0) S40x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S40x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x128x128 : Shape := ⟨4, ![16, 80, 128, 128]⟩
abbrev S_ : Shape := ⟨0, ![]⟩
abbrev S16x80x130x130 : Shape := ⟨4, ![16, 80, 130, 130]⟩

abbrev nBuf : Space → Nat
  | .hbm => 12
  | .vmem => 0
  | .smem => 0
  | _ => 0

abbrev bufTy : (tb : Table) → Fin (tcTables nBuf tb) → BufTy
  | .hbm, ⟨0, _⟩ => ⟨S16x80x128x128, .f32⟩
  | .hbm, ⟨1, _⟩ => ⟨S_, .f32⟩
  | .hbm, ⟨2, _⟩ => ⟨S_, .f32⟩
  | .hbm, ⟨3, _⟩ => ⟨S16x80x130x130, .f32⟩
  | .hbm, ⟨4, _⟩ => ⟨S_, .f32⟩
  | .hbm, ⟨5, _⟩ => ⟨S_, .f32⟩
  | .hbm, ⟨6, _⟩ => ⟨S16x80x128x128, .f32⟩
  | .hbm, ⟨7, _⟩ => ⟨S16x80x128x128, .i1⟩
  | .hbm, ⟨8, _⟩ => ⟨S_, .f32⟩
  | .hbm, ⟨9, _⟩ => ⟨S_, .f32⟩
  | .hbm, ⟨10, _⟩ => ⟨S16x80x128x128, .f32⟩
  | .hbm, ⟨11, _⟩ => ⟨S16x80x128x128, .f32⟩
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  pads_S16x80x128x128_S16x80x130x130_000_000_110_110 : S16x80x128x128.Pads (![0, 0, 1, 1] : Fin 4 → Nat) ![0, 0, 1, 1] ![0, 0, 0, 0] S16x80x130x130
  h_S_ : 0 < S_.numel
  bcast_S_S_ : S_.BroadcastsInDim S_ (![] : Fin 0 → Fin S_.rank)
  reduceWindows_S16x80x130x130_S16x80x128x128_w1s1p0_0_w1s1p0_0_w3s1p0_0_w3s1p0_0 : S16x80x130x130.ReduceWindows (![1, 1, 3, 3] : Fin 4 → Nat) ![1, 1, 1, 1] ![0, 0, 0, 0] ![0, 0, 0, 0] S16x80x128x128
  bcast_S_S16x80x128x128 : S_.BroadcastsInDim S16x80x128x128 (![] : Fin 0 → Fin S16x80x128x128.rank)

variable [Facts₀]

class Facts : Prop extends Facts₀ where

variable [Facts]
-- ==== Proof.PeakSpec.lean ====
/-
  Non-maximum suppression of a 128 × 128 image over the extended reals, as one function of the image.

  The image is framed by one ring of zeros (rows and columns 0 and 129 of a 130 × 130 frame); the local maximum at
  pixel (h, w) is the maximum of the nine framed values in rows h … h + 2 and columns w … w + 2 of the frame, which are
  the pixel's 3 × 3 neighbourhood in the image with zero standing in for every neighbour outside it; a pixel is kept
  when it equals its local maximum and replaced by zero otherwise. Both programs of this certificate compute this
  function of every one of the 1280 images of the input: the kernel from a zeroed scratch frame into which it copies
  the images, the reference from a padded copy of the input and a windowed maximum started at −∞.
-/
import Idealize.ShloMosaic.PureOps.Ideal
import Idealize.ShloMosaic.PureOps.Ideal.Laws
import Idealize.ShloMosaic.Lib.ValueIdx

noncomputable section

namespace Cert.Peaks

open Idealize.ShloMosaic

/-- The zero-framed image at row `r` and column `s` of the 130 × 130 frame: the image's pixel (r − 1, s − 1) when
    both coordinates are in 1 … 128, zero on the ring around it (and anywhere further out). -/
def framed (img : Fin 128 → Fin 128 → EReal) (r s : ℕ) : EReal :=
  if h : (1 ≤ r ∧ r - 1 < 128) ∧ (1 ≤ s ∧ s - 1 < 128) then img ⟨r - 1, h.1.2⟩ ⟨s - 1, h.2.2⟩ else 0

/-- Inside the frame's interior the framed image is the image. -/
theorem framed_inside (img : Fin 128 → Fin 128 → EReal) (h w : Fin 128) :
    framed img (h.val + 1) (w.val + 1) = img h w := by
  unfold framed
  rw [dif_pos ⟨⟨Nat.le_add_left _ _, by have := h.isLt; omega⟩, ⟨Nat.le_add_left _ _, by have := w.isLt; omega⟩⟩]
  rfl

/-- On the ring (and beyond) the framed image is zero. -/
theorem framed_outside (img : Fin 128 → Fin 128 → EReal) (r s : ℕ)
    (h : ¬((1 ≤ r ∧ r - 1 < 128) ∧ (1 ≤ s ∧ s - 1 < 128))) : framed img r s = 0 := by
  unfold framed
  rw [dif_neg h]

/-- The maximum of the nine framed values around pixel (h, w), taken row by row, left to right. -/
def localMax (img : Fin 128 → Fin 128 → EReal) (h w : ℕ) : EReal :=
  max (max (max (max (max (max (max (max (framed img h w) (framed img h (w + 1))) (framed img h (w + 2)))
    (framed img (h + 1) w)) (framed img (h + 1) (w + 1))) (framed img (h + 1) (w + 2)))
    (framed img (h + 2) w)) (framed img (h + 2) (w + 1))) (framed img (h + 2) (w + 2))

/-- A pixel survives when it equals the maximum over its neighbourhood, and is replaced by zero otherwise. -/
def keepPeak (img : Fin 128 → Fin 128 → EReal) (h w : Fin 128) : EReal :=
  Scalar.select (Ideal.cmp .oeq (img h w) (localMax img h.val w.val)) (img h w) 0

/-- Every one of the 16 × 80 images with its non-peaks zeroed: the function of the input that both programs compute. -/
def imagePeaks (X : (⟨4, ![16, 80, 128, 128]⟩ : Shape).Idx → EReal) : (⟨4, ![16, 80, 128, 128]⟩ : Shape).Idx → EReal :=
  fun i => keepPeak (fun h w => X (ValueIdx.ix4 (i 0) (i 1) h w)) (i 2) (i 3)

end Cert.Peaks

end
-- ==== Proof.ScratchFrame.lean ====
/-
  What the kernel body leaves in its output block, read at an index.

  The body first fills its 40 × 130 × 130 scratch with zeros, then copies the 40 × 128 × 128 input block into the
  scratch's interior (rows and columns 1 … 128 of every one of the 40 frames), then loads nine 40 × 128 × 128 boxes of
  the scratch at the row and column offsets 0, 1, 2 and folds them with `max`. A box at offset (di, dj), read at
  (b, h, w), is the scratch at (b, h + di, w + dj): the block's pixel (b, h + di − 1, w + dj − 1) in the interior, zero
  on the ring — the zero-framed image of `Cert.Peaks.framed`. So the block stored is, pixel by pixel, `keepPeak` of
  image `b` of the input block.
-/
import proofs.«157320_j39049842655966_1_alg».proof.Proof.Gen.KernelIdeal.Frame
import proofs.«157320_j39049842655966_1_alg».proof.Proof.PeakSpec
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL Idealize.SL.Sem Cert.Peaks

theorem zero_offsets : (![0, 0, 0] : Fin 3 → Nat) = fun _ => 0 := funext fun a => by fin_cases a <;> rfl

/-- Two stores into a 40 × 130 × 130 buffer — first the whole buffer, then the interior box at offset (0, 1, 1) — read
    back through a 40 × 128 × 128 box at offset (0, di, dj): inside the interior the later store's payload, shifted;
    on the ring the earlier one's. -/
theorem read_interior_over_whole (w1 : S40x128x128.Idx → EReal) (w0 : S40x130x130.Idx → EReal)
    (inb1 : ∀ a, (![0, 1, 1] : Fin 3 → Nat) a + S40x128x128.size a ≤ S40x130x130.size a)
    (inb0 : ∀ a, (![0, 0, 0] : Fin 3 → Nat) a + S40x130x130.size a ≤ S40x130x130.size a)
    (di dj : ℕ) (inb : ∀ a, (![0, di, dj] : Fin 3 → Nat) a + S40x128x128.size a ≤ S40x130x130.size a)
    (b : Fin 40) (h w : Fin 128) :
    View.canon (Val := Elt Ideal) (s := S40x130x130) (e := .f32)
        [⟨Rect.unit (s := S40x130x130) ![0, 1, 1] S40x128x128.size inb1, w1⟩, ⟨Rect.unit (s := S40x130x130) ![0, 0, 0] S40x130x130.size inb0, w0⟩]
        ((Rect.unit (s := S40x130x130) ![0, di, dj] S40x128x128.size inb).toLoadRect.idx (ix3 b h w))
      = if hin : (1 ≤ h.val + di ∧ h.val + di - 1 < 128) ∧ (1 ≤ w.val + dj ∧ w.val + dj - 1 < 128) then
          w1 (ix3 b ⟨h.val + di - 1, hin.1.2⟩ ⟨w.val + dj - 1, hin.2.2⟩)
        else w0 ((Rect.unit (s := S40x130x130) ![0, di, dj] S40x128x128.size inb).toLoadRect.idx (ix3 b h w)) := by
  have hb := b.isLt; have hh := h.isLt; have hw := w.isLt
  split
  · rename_i hin
    have e : (Rect.unit (s := S40x130x130) ![0, di, dj] S40x128x128.size inb).toLoadRect.idx (ix3 b h w)
        = (Rect.unit (s := S40x130x130) ![0, 1, 1] S40x128x128.size inb1).emb (ix3 b ⟨h.val + di - 1, hin.1.2⟩ ⟨w.val + dj - 1, hin.2.2⟩) := by
      funext a; apply Fin.ext
      match a with
      | ⟨0, _⟩ => rfl
      | ⟨1, _⟩ => show di + 1 * h.val = 1 + 1 * (h.val + di - 1); omega
      | ⟨2, _⟩ => show dj + 1 * w.val = 1 + 1 * (w.val + dj - 1); omega
    rw [e]
    exact View.canon_cons_emb (Val := Elt Ideal) (e := .f32) (Rect.unit (s := S40x130x130) ![0, 1, 1] S40x128x128.size inb1) w1 _ _
  · rename_i hout
    rw [View.canon_cons_of_not_mem, View.canon_unit_zero zero_offsets]
    show _ ∉ (Rect.unit (s := S40x130x130) ![0, 1, 1] S40x128x128.size inb1).set
    rw [Rect.mem_set_unit]
    intro hmem
    apply hout
    have h1 := hmem 1
    have h2 := hmem 2
    have e1 : (((Rect.unit (s := S40x130x130) ![0, di, dj] S40x128x128.size inb).toLoadRect.idx (ix3 b h w)) 1).val = di + 1 * h.val := rfl
    have e2 : (((Rect.unit (s := S40x130x130) ![0, di, dj] S40x128x128.size inb).toLoadRect.idx (ix3 b h w)) 2).val = dj + 1 * w.val := rfl
    have s1 : (![0, 1, 1] : Fin 3 → Nat) 1 = 1 := rfl
    have s2 : (![0, 1, 1] : Fin 3 → Nat) 2 = 1 := rfl
    have z1 : S40x128x128.size 1 = 128 := rfl
    have z2 : S40x128x128.size 2 = 128 := rfl
    rw [e1, s1, z1] at h1
    rw [e2, s2, z2] at h2
    omega

/-- The kernel's scratch after its two stores — zeros everywhere, then the input block `x0` over the interior — read
    through the box at offset (0, di, dj) at (b, h, w): the zero-framed image `b` of the block at row `h + di` and
    column `w + dj` of its frame. -/
theorem scratch_read (x0 : Vec Ideal S40x128x128 .f32)
    (inb1 : ∀ a, (![0, 1, 1] : Fin 3 → Nat) a + S40x128x128.size a ≤ S40x130x130.size a)
    (inb0 : ∀ a, (![0, 0, 0] : Fin 3 → Nat) a + S40x130x130.size a ≤ S40x130x130.size a)
    (di dj : ℕ) (inb : ∀ a, (![0, di, dj] : Fin 3 → Nat) a + S40x128x128.size a ≤ S40x130x130.size a)
    (b : Fin 40) (h w : Fin 128) :
    View.canon (Val := Elt Ideal) (s := S40x130x130) (e := .f32)
        [⟨Rect.unit (s := S40x130x130) ![0, 1, 1] S40x128x128.size inb1, k0_pay4 x0⟩,
          ⟨Rect.unit (s := S40x130x130) ![0, 0, 0] S40x130x130.size inb0, k0_pay2 (F := Ideal)⟩]
        ((Rect.unit (s := S40x130x130) ![0, di, dj] S40x128x128.size inb).toLoadRect.idx (ix3 b h w))
      = framed (fun h' w' => x0 (ix3 b h' w')) (h.val + di) (w.val + dj) := by
  rw [read_interior_over_whole]
  unfold framed
  split
  · unfold k0_pay4 k0_pay3
    rw [shapeCast_self, shapeCast_self]
  · unfold k0_pay2
    rw [shapeCast_self]
    exact Ideal.ofBits_zero_f32

/-- WHAT THE BODY STORES, pixel by pixel: the pixel of the input block where it equals the maximum over its zero-framed
    3 × 3 neighbourhood, zero elsewhere. -/
theorem block_out (c : Dev nD) (i : grid0.Coords) (arg1 : Memref sig .tc .vmem S40x128x128 .f32) (harg1 : arg1.IsWhole)
    (arg2 : Memref sig .tc .vmem S40x128x128 .f32) (harg2 : arg2.IsWhole)
    (arg3 : Memref sig .tc .vmem S40x130x130 .f32) (harg3 : arg3.IsWhole)
    (x0 : Vec Ideal S40x128x128 .f32) (b : Fin 40) (h w : Fin 128) :
    out0_A_1 (F := Ideal) c i arg1 harg1 arg2 harg2 arg3 harg3 x0 (ix3 b h w)
      = keepPeak (fun h' w' => x0 (ix3 b h' w')) h w := by
  unfold out0_A_1
  rw [View.read_writes_eq_canon _ _ _ (cover0_A_1 c i arg1 harg1 arg2 harg2 arg3 harg3 x0)]
  unfold kernelRun0_A
  dsimp only
  sl_unfold_words
  rw [View.canon_unit_zero zero_offsets]
  simp only [View.readAt_eq_ld, harg1.read_unread, View.ld_unit_zero (S := S40x128x128) zero_offsets,
    View.readCov_eq_canon']
  unfold k0_pay1 k0_pay5 k0_pay3
  simp only [select_apply, cmpf_apply, ValueIdx.maximumf_apply, broadcast_apply, shapeCast_self]
  rw [scratch_read x0 _ _ 0 0, scratch_read x0 _ _ 0 1, scratch_read x0 _ _ 0 2, scratch_read x0 _ _ 1 0,
    scratch_read x0 _ _ 1 1, scratch_read x0 _ _ 1 2, scratch_read x0 _ _ 2 0, scratch_read x0 _ _ 2 1,
    scratch_read x0 _ _ 2 2]
  unfold keepPeak localMax
  simp only [Nat.add_zero, Ideal.ofBits_def, Ideal.ofBits_zero_f32, Ideal.cmpf_def]

end Cert.KernelIdeal.Block

end
-- ==== Proof.KernelPeaks.lean ====
/-
  The kernel's result array, as one function of its argument.

  The grid has 32 points; point `t` reads images 40 t … 40 t + 39 of the input, viewed as a stack of 1280 images, and
  writes the same images of the output stack; by the block lemma each image written is the image read with its
  non-peaks zeroed (`keepPeak`). The 32 blocks tile the stack, so the output stack is `keepPeak` of every image of the
  input stack; the two reshapes around the call lay the 16 × 80 images out as the stack and back in row-major order,
  image (b, c) being image 80 b + c of the stack.
-/
import proofs.«157320_j39049842655966_1_alg».proof.Proof.ScratchFrame
import Idealize.ShloMosaic.Lib.Pipeline.Value
import Idealize.ShloMosaic.Lib.StableHlo.Run

set_option maxRecDepth 16384

noncomputable section

namespace Cert.KernelIdeal.Peaks

open Cert.KernelIdeal Cert.KernelIdeal.Gen Cert.KernelIdeal.Block Idealize.ShloMosaic Idealize.ShloMosaic.TcCoe
open Idealize.SL.Sem Idealize.ShloMosaic.ValueIdx Cert.Peaks
open Idealize.ShloMosaic.Pipeline (Dat)

variable (m : (ℓ : Loc nD τ sig) → Buf (Elt Ideal) ℓ) (ρ : Dev nD → PrngReg)

/-- Every image of a stack of 1280 with its non-peaks zeroed. -/
def stackPeaks (Y : S1280x128x128.Idx → EReal) : S1280x128x128.Idx → EReal :=
  fun j => keepPeak (fun h w => Y (ix3 (j 0) h w)) (j 1) (j 2)

/-- The body's output block as one function of its input block. -/
theorem block_fn (c : Dev nD) (i : grid0.Coords) (a1 : Memref sig .tc .vmem S40x128x128 .f32) (h1 : a1.IsWhole)
    (a2 : Memref sig .tc .vmem S40x128x128 .f32) (h2 : a2.IsWhole)
    (a3 : Memref sig .tc .vmem S40x130x130 .f32) (h3 : a3.IsWhole) (x0 : Vec Ideal S40x128x128 .f32) :
    out0_A_1 (F := Ideal) c i a1 h1 a2 h2 a3 h3 x0
      = fun j => keepPeak (fun h' w' => x0 (ix3 (j 0) h' w')) (j 1) (j 2) := by
  funext j
  obtain ⟨b, h, w, rfl⟩ : ∃ (b : Fin 40) (h w : Fin 128), j = ix3 b h w := ⟨j 0, j 1, j 2, eq_ix3 j⟩
  exact block_out c i a1 h1 a2 h2 a3 h3 x0 b h w

/-- The index maps, decided over the grid: both windows are at block `t` of the stack at point `t`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- A block of 40 images that is images 40 n … 40 n + 39 of a stack: zeroing the non-peaks of the block's image `j 0`
    is zeroing those of the stack's image at the same place. -/
theorem keepPeak_block (Y : S1280x128x128.Idx → EReal) (x0 : S40x128x128.Idx → EReal) (n : ℕ)
    (hx : ∀ (y : S40x128x128.Idx) (k : S1280x128x128.Idx), (k 0).val = n * 40 + (y 0).val → (k 1).val = (y 1).val →
      (k 2).val = (y 2).val → x0 y = Y k)
    (j : S40x128x128.Idx) (i : S1280x128x128.Idx) (hi0 : (i 0).val = n * 40 + (j 0).val)
    (hi1 : (i 1).val = (j 1).val) (hi2 : (i 2).val = (j 2).val) :
    keepPeak (fun h' w' => x0 (ix3 (j 0) h' w')) (j 1) (j 2) = stackPeaks Y i := by
  unfold stackPeaks
  have e1 : (i 1 : Fin 128) = j 1 := Fin.ext hi1
  have e2 : (i 2 : Fin 128) = j 2 := Fin.ext hi2
  rw [e1, e2]
  congr 1
  funext h' w'
  exact hx _ _ hi0 rfl rfl

/-- WHAT POINT `t` WRITES BACK is block `t` of the input stack's peaks. -/
theorem flushed_eq (c : Dev nD) (t : Fin cfg0.N) :
    (dats m 0 c).flushed 1 t = ((cfg0.win 1).blk t).view.read (Elt Ideal) (stackPeaks (V m c main_v0)) := by
  show (cfg0.win 1).cut (grid0.coords t) ((dats m 0 c).after 1 t) = _
  rw [after0_1]
  unfold outsAt0
  rw [block_fn]
  obtain ⟨e0, e1, e2, e3, e4, e5⟩ := idx_facts t
  funext j
  show keepPeak (fun h' w' => iblk m c 0 t (ix3 (j 0) h' w')) (j 1) (j 2)
    = stackPeaks (V m c main_v0) (((cfg0.win 1).blk t).view.emb j)
  refine keepPeak_block (V m c main_v0) (iblk m c 0 t) t.val ?_ j _ ?_ ?_ ?_
  · intro y k h0 h1 h2
    show V m c main_v0 (((cfg0.win 0).blk t).view.emb y) = V m c main_v0 k
    refine congrArg _ (funext fun a => Fin.ext ?_)
    match a with
    | ⟨0, _⟩ => show win0_0.index t (0 : Fin 3) * 40 + 1 * (y 0).val = (k 0).val; omega
    | ⟨1, _⟩ => show win0_0.index t (1 : Fin 3) * 128 + 1 * (y 1).val = (k 1).val; omega
    | ⟨2, _⟩ => show win0_0.index t (2 : Fin 3) * 128 + 1 * (y 2).val = (k 2).val; omega
  · show win0_1.index t (0 : Fin 3) * 40 + 1 * (j 0).val = t.val * 40 + (j 0).val; omega
  · show win0_1.index t (1 : Fin 3) * 128 + 1 * (j 1).val = (j 1).val; omega
  · show win0_1.index t (2 : Fin 3) * 128 + 1 * (j 2).val = (j 2).val; omega

/-- An index of the stack is in point `t`'s block iff each coordinate is in the block's range on its axis. -/
theorem mem_blk (t : Fin cfg0.N) (i : S1280x128x128.Idx) :
    i ∈ ((cfg0.win 1).blk t).view.set ↔ ∀ a : Fin 3, win0_1.index t a * S40x128x128.size a ≤ (i a).val
      ∧ (i a).val < win0_1.index t a * S40x128x128.size a + S40x128x128.size a := by
  show i ∈ ((View.whole main_v1).slice (win0_1.rect t)).set ↔ _
  rw [View.set_slice_whole, Rect.mem_set_unit]
  exact Iff.rfl

/-- The 32 blocks tile the stack: image `n` is in block `n / 40`. -/
theorem cover (i : S1280x128x128.Idx) :
    ∃ t : Fin cfg0.N, (cfg0.win 1).flush t = true ∧ i ∈ ((cfg0.win 1).blk t).view.set := by
  have hN : cfg0.N = 32 := N_0
  have hi0 : (i 0).val < 1280 := (i 0).isLt
  have hi1 : (i 1).val < 128 := (i 1).isLt
  have hi2 : (i 2).val < 128 := (i 2).isLt
  have ht : (i 0).val / 40 < cfg0.N := by rw [hN]; omega
  refine ⟨⟨(i 0).val / 40, ht⟩, flush0_1 _, ?_⟩
  rw [mem_blk]
  obtain ⟨e0, e1, e2, e3, e4, e5⟩ := idx_facts ⟨(i 0).val / 40, ht⟩
  have e3' : win0_1.index ⟨(i 0).val / 40, ht⟩ (0 : Fin 3) = (i 0).val / 40 := e3
  intro a
  match a with
  | ⟨0, _⟩ =>
    show win0_1.index ⟨(i 0).val / 40, ht⟩ (0 : Fin 3) * 40 ≤ (i 0).val
      ∧ (i 0).val < win0_1.index ⟨(i 0).val / 40, ht⟩ (0 : Fin 3) * 40 + 40
    omega
  | ⟨1, _⟩ =>
    show win0_1.index ⟨(i 0).val / 40, ht⟩ (1 : Fin 3) * 128 ≤ (i 1).val
      ∧ (i 1).val < win0_1.index ⟨(i 0).val / 40, ht⟩ (1 : Fin 3) * 128 + 128
    omega
  | ⟨2, _⟩ =>
    show win0_1.index ⟨(i 0).val / 40, ht⟩ (2 : Fin 3) * 128 ≤ (i 2).val
      ∧ (i 2).val < win0_1.index ⟨(i 0).val / 40, ht⟩ (2 : Fin 3) * 128 + 128
    omega

/-- THE OUTPUT STACK after the region: the peaks of the input stack as the region finds it. -/
theorem final (c : Dev nD) : (dats m 0 c).arrAt 1 cfg0.N = stackPeaks (V m c main_v0) :=
  (dats m 0 c).arrAt_eq_of_cover 1 (stackPeaks (V m c main_v0)) (fun t _ => flushed_eq m c t) cover

/-! ## The reshapes around the call -/

/-- The input stack the region finds is the input reshaped. -/
theorem entry_stack (c : Dev nD) :
    (V m c main_v0 : S1280x128x128.Idx → EReal)
      = shapeCast S1280x128x128 (m ((c : Thread nD τ).loc main_arg0)) shapeCasts_S16x80x128x128_S1280x128x128 := by
  show StableHlo.after hostOps0 (fun b => m (c, b)) (Proc.devRef .tc main_v0) = _
  after_results
  rfl

/-- The result is the output stack reshaped. -/
theorem tail_eq (c : Dev nD) :
    Pipeline.afterTail₀ cfgs (dats m) 0 (V0 m) [hostOps1] c main_v2
      = shapeCast S16x80x128x128 (stackPeaks (V m c main_v0)) shapeCasts_S1280x128x128_S16x80x128x128 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = stackPeaks (V m c main_v0) :=
    (Pipeline.withArrays_arr spec0 launch0.win.arr_inj c _ _ 1).trans (final m c)
  exact congrArg (fun Z : S1280x128x128.Idx → EReal =>
    shapeCast S16x80x128x128 Z shapeCasts_S1280x128x128_S16x80x128x128) e

/-- Image (b, c) of the input is image 80 b + c of the stack, both ways: the peaks of the stack, laid out as 16 × 80
    images again, are the peaks of the images. -/
theorem reshaped_peaks (X : S16x80x128x128.Idx → EReal) (h1 : S16x80x128x128.ShapeCasts S1280x128x128)
    (h2 : S1280x128x128.ShapeCasts S16x80x128x128) :
    shapeCast S16x80x128x128 (stackPeaks (shapeCast S1280x128x128 X h1)) h2 = imagePeaks X := by
  funext i
  obtain ⟨b, c, h, w, rfl⟩ : ∃ (b : Fin 16) (c : Fin 80) (h w : Fin 128), i = ix4 b c h w :=
    ⟨i 0, i 1, i 2, i 3, eq_ix4 i⟩
  have hb := b.isLt; have hc := c.isLt; have hh := h.isLt; have hw := w.isLt
  rw [shapeCast_apply _ h2 (ix4 b c h w) (ix3 (⟨80 * b.val + c.val, by omega⟩ : Fin 1280) h w) (by
    rw [Shape.rowMajor_val_three, Shape.rowMajor_val_four]
    show ((80 * b.val + c.val) * 128 + h.val) * 128 + w.val = ((b.val * 80 + c.val) * 128 + h.val) * 128 + w.val
    omega)]
  show keepPeak (fun h' w' => shapeCast S1280x128x128 X h1 (ix3 (⟨80 * b.val + c.val, by omega⟩ : Fin 1280) h' w')) h w
    = keepPeak (fun h' w' => X (ix4 b c h' w')) h w
  congr 1
  funext h' w'
  have hh' := h'.isLt; have hw' := w'.isLt
  exact shapeCast_apply X h1 _ (ix4 b c h' w') (by
    rw [Shape.rowMajor_val_three, Shape.rowMajor_val_four]
    show ((b.val * 80 + c.val) * 128 + h'.val) * 128 + w'.val = ((80 * b.val + c.val) * 128 + h'.val) * 128 + w'.val
    omega)

/-! ## The run, read -/

/-- Every weakly fair execution of the kernel's program terminates with its result at `imagePeaks` of the argument and
    the argument unchanged. -/
theorem run : θ_run defs (onTc (τ := τ) (main (F := Ideal))) ⟨m, fun _ => 0, ρ⟩ fun r => ∀ c : Dev nD,
      r.2.mem ((c : Thread nD τ).loc main_v2) = imagePeaks (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans
          ((tail_eq m c).trans (by rw [entry_stack]; exact reshaped_peaks _ _ _)),
        ((h c).2 main_arg0 (Pipeline.mem_restRefs_of main_arg0 (by decide) (by decide))).trans
          (W_main_arg0 m (dats m) c)⟩)
    (run_main m ρ)

end Cert.KernelIdeal.Peaks

end
-- ==== Proof.RefPeaks.lean ====
/-
  The reference, read at an index.

  The reference pads every 128 × 128 image of the input with one ring of zeros, takes over the padded images the
  maximum of every 3 × 3 window (a fold of `max` from −∞ over the window's nine positions, row by row), and keeps a
  pixel where it equals that maximum. The padded image is `Cert.Peaks.framed`; −∞ is the bottom of the extended reals,
  so the fold from it is the maximum of the nine framed values in the fold's own order, which is the order
  `Cert.Peaks.localMax` takes them in; so the reference's result at a pixel is `keepPeak` of that pixel's image.
-/
import proofs.«157320_j39049842655966_1_alg».proof.Proof.Gen.ReferenceIdeal.Read
import proofs.«157320_j39049842655966_1_alg».proof.Proof.PeakSpec
import Idealize.ShloMosaic.Lib.KernelVsHost
import Idealize.ShloMosaic.Lib.ValueIdx

noncomputable section

namespace Cert.ReferenceIdeal.Peaks

open Cert.ReferenceIdeal Cert.ReferenceIdeal.Gen Cert.ReferenceIdeal.Read Idealize.ShloMosaic
open Idealize.ShloMosaic.ValueIdx Cert.Peaks

/-! ## The padded input is the zero-framed image -/

/-- The padded input at image (b, c), row `r` and column `s` of the 130 × 130 frame. -/
theorem padded_read (X : S16x80x128x128.Idx → EReal) (b : Fin 16) (c : Fin 80) (r s : Fin 130) :
    val_main_v0 (F := Ideal) X (ix4 b c r s) = framed (fun h' w' => X (ix4 b c h' w')) r.val s.val := by
  have hb := b.isLt; have hc := c.isLt; have hr := r.isLt; have hs := s.isLt
  unfold val_main_v0 framed
  split
  · rename_i hin
    exact pad_apply_of_inside _ _ _ X _ _ _ (ix4 b c r s) (ix4 b c ⟨r.val - 1, hin.1.2⟩ ⟨s.val - 1, hin.2.2⟩) (fun a => by
      match a with
      | ⟨0, _⟩ => show b.val = 0 + b.val * (0 + 1); omega
      | ⟨1, _⟩ => show c.val = 0 + c.val * (0 + 1); omega
      | ⟨2, _⟩ => show r.val = 1 + (r.val - 1) * (0 + 1); omega
      | ⟨3, _⟩ => show s.val = 1 + (s.val - 1) * (0 + 1); omega)
  · rename_i hout
    have hz : val_main_call0_v0 (F := Ideal) (Shape.Idx.first h_S_) = 0 := Ideal.ofBits_zero_f32
    by_cases h2 : 1 ≤ r.val ∧ r.val - 1 < 128
    · have h3 : ¬(1 ≤ s.val ∧ s.val - 1 < 128) := fun h3 => hout ⟨h2, h3⟩
      rw [pad_apply_of_not_inside _ _ _ X _ _ _ (ix4 b c r s) 3 (by
        show ¬(1 ≤ s.val ∧ (s.val - 1) % 1 = 0 ∧ (s.val - 1) / 1 < 128)
        omega)]
      exact hz
    · rw [pad_apply_of_not_inside _ _ _ X _ _ _ (ix4 b c r s) 2 (by
        show ¬(1 ≤ r.val ∧ (r.val - 1) % 1 = 0 ∧ (r.val - 1) / 1 < 128)
        omega)]
      exact hz

/-! ## The windowed maximum -/

/-- A fold over the nine positions of a window, written out. -/
theorem foldl_finRange_nine {β : Type} {N : ℕ} (hN : N = 9) (g : β → Fin N → β) (v : β) :
    (List.finRange N).foldl g v
      = g (g (g (g (g (g (g (g (g v ⟨0, by omega⟩) ⟨1, by omega⟩) ⟨2, by omega⟩) ⟨3, by omega⟩) ⟨4, by omega⟩)
          ⟨5, by omega⟩) ⟨6, by omega⟩) ⟨7, by omega⟩) ⟨8, by omega⟩ := by
  subst hN; rfl

/-- A 1 × 1 × 3 × 3 window has nine positions. -/
theorem numel_window : (⟨4, ![1, 1, 3, 3]⟩ : Shape).numel = 9 := by decide

/-- What the windowed maximum folds in at position `n` of the window at pixel (h, w) of image (b, c), when the
    position's coordinates are (0, 0, di, dj): the operand at row `h + di` and column `w + dj` (unit strides, nothing
    padded: the position is always inside the operand). -/
theorem entry_eq (x : S16x80x130x130.Idx → EReal) (v0 : EReal) (b : Fin 16) (c : Fin 80) (h w : Fin 128)
    (n : Fin (⟨4, ![1, 1, 3, 3]⟩ : Shape).numel) (di dj : ℕ) (hdi : di ≤ 2) (hdj : dj ≤ 2)
    (hn : ∀ a : Fin 4, ((⟨4, ![1, 1, 3, 3]⟩ : Shape).rowMajor.symm n a).val = (![0, 0, di, dj] : Fin 4 → Nat) a)
    (hc : (4 : ℕ) = 4)
    (inst : Decidable (∀ a : Fin 4, (![0, 0, 0, 0] : Fin 4 → Nat) a ≤ (ix4 b c h w (Fin.cast hc a)).val * (![1, 1, 1, 1] : Fin 4 → Nat) a + ((⟨4, ![1, 1, 3, 3]⟩ : Shape).rowMajor.symm n a).val ∧ (ix4 b c h w (Fin.cast hc a)).val * (![1, 1, 1, 1] : Fin 4 → Nat) a + ((⟨4, ![1, 1, 3, 3]⟩ : Shape).rowMajor.symm n a).val - (![0, 0, 0, 0] : Fin 4 → Nat) a < S16x80x130x130.size a)) :
    @dite EReal (∀ a : Fin 4, (![0, 0, 0, 0] : Fin 4 → Nat) a ≤ (ix4 b c h w (Fin.cast hc a)).val * (![1, 1, 1, 1] : Fin 4 → Nat) a + ((⟨4, ![1, 1, 3, 3]⟩ : Shape).rowMajor.symm n a).val ∧ (ix4 b c h w (Fin.cast hc a)).val * (![1, 1, 1, 1] : Fin 4 → Nat) a + ((⟨4, ![1, 1, 3, 3]⟩ : Shape).rowMajor.symm n a).val - (![0, 0, 0, 0] : Fin 4 → Nat) a < S16x80x130x130.size a) inst
        (fun hin => x fun a => ⟨(ix4 b c h w (Fin.cast hc a)).val * (![1, 1, 1, 1] : Fin 4 → Nat) a + ((⟨4, ![1, 1, 3, 3]⟩ : Shape).rowMajor.symm n a).val - (![0, 0, 0, 0] : Fin 4 → Nat) a, (hin a).2⟩) (fun _ => v0)
      = x (ix4 b c ⟨h.val + di, by have := h.isLt; omega⟩ ⟨w.val + dj, by have := w.isLt; omega⟩) := by
  have hb := b.isLt; have hc' := c.isLt; have hh := h.isLt; have hw := w.isLt
  have hin : ∀ a : Fin 4, (![0, 0, 0, 0] : Fin 4 → Nat) a ≤ (ix4 b c h w (Fin.cast hc a)).val * (![1, 1, 1, 1] : Fin 4 → Nat) a + ((⟨4, ![1, 1, 3, 3]⟩ : Shape).rowMajor.symm n a).val ∧ (ix4 b c h w (Fin.cast hc a)).val * (![1, 1, 1, 1] : Fin 4 → Nat) a + ((⟨4, ![1, 1, 3, 3]⟩ : Shape).rowMajor.symm n a).val - (![0, 0, 0, 0] : Fin 4 → Nat) a < S16x80x130x130.size a := by
    intro a
    match a with
    | ⟨0, h0⟩ =>
      have e : ((⟨4, ![1, 1, 3, 3]⟩ : Shape).rowMajor.symm n ⟨0, h0⟩).val = 0 := hn ⟨0, h0⟩
      show 0 ≤ b.val * 1 + ((⟨4, ![1, 1, 3, 3]⟩ : Shape).rowMajor.symm n ⟨0, h0⟩).val ∧ b.val * 1 + ((⟨4, ![1, 1, 3, 3]⟩ : Shape).rowMajor.symm n ⟨0, h0⟩).val - 0 < 16
      omega
    | ⟨1, h0⟩ =>
      have e : ((⟨4, ![1, 1, 3, 3]⟩ : Shape).rowMajor.symm n ⟨1, h0⟩).val = 0 := hn ⟨1, h0⟩
      show 0 ≤ c.val * 1 + ((⟨4, ![1, 1, 3, 3]⟩ : Shape).rowMajor.symm n ⟨1, h0⟩).val ∧ c.val * 1 + ((⟨4, ![1, 1, 3, 3]⟩ : Shape).rowMajor.symm n ⟨1, h0⟩).val - 0 < 80
      omega
    | ⟨2, h0⟩ =>
      have e : ((⟨4, ![1, 1, 3, 3]⟩ : Shape).rowMajor.symm n ⟨2, h0⟩).val = di := hn ⟨2, h0⟩
      show 0 ≤ h.val * 1 + ((⟨4, ![1, 1, 3, 3]⟩ : Shape).rowMajor.symm n ⟨2, h0⟩).val ∧ h.val * 1 + ((⟨4, ![1, 1, 3, 3]⟩ : Shape).rowMajor.symm n ⟨2, h0⟩).val - 0 < 130
      omega
    | ⟨3, h0⟩ =>
      have e : ((⟨4, ![1, 1, 3, 3]⟩ : Shape).rowMajor.symm n ⟨3, h0⟩).val = dj := hn ⟨3, h0⟩
      show 0 ≤ w.val * 1 + ((⟨4, ![1, 1, 3, 3]⟩ : Shape).rowMajor.symm n ⟨3, h0⟩).val ∧ w.val * 1 + ((⟨4, ![1, 1, 3, 3]⟩ : Shape).rowMajor.symm n ⟨3, h0⟩).val - 0 < 130
      omega
  rw [dif_pos hin]
  refine congrArg x (funext fun a => Fin.ext ?_)
  match a with
  | ⟨0, h0⟩ =>
    have e : ((⟨4, ![1, 1, 3, 3]⟩ : Shape).rowMajor.symm n ⟨0, h0⟩).val = 0 := hn ⟨0, h0⟩
    show b.val * 1 + ((⟨4, ![1, 1, 3, 3]⟩ : Shape).rowMajor.symm n ⟨0, h0⟩).val - 0 = b.val
    omega
  | ⟨1, h0⟩ =>
    have e : ((⟨4, ![1, 1, 3, 3]⟩ : Shape).rowMajor.symm n ⟨1, h0⟩).val = 0 := hn ⟨1, h0⟩
    show c.val * 1 + ((⟨4, ![1, 1, 3, 3]⟩ : Shape).rowMajor.symm n ⟨1, h0⟩).val - 0 = c.val
    omega
  | ⟨2, h0⟩ =>
    have e : ((⟨4, ![1, 1, 3, 3]⟩ : Shape).rowMajor.symm n ⟨2, h0⟩).val = di := hn ⟨2, h0⟩
    show h.val * 1 + ((⟨4, ![1, 1, 3, 3]⟩ : Shape).rowMajor.symm n ⟨2, h0⟩).val - 0 = h.val + di
    omega
  | ⟨3, h0⟩ =>
    have e : ((⟨4, ![1, 1, 3, 3]⟩ : Shape).rowMajor.symm n ⟨3, h0⟩).val = dj := hn ⟨3, h0⟩
    show w.val * 1 + ((⟨4, ![1, 1, 3, 3]⟩ : Shape).rowMajor.symm n ⟨3, h0⟩).val - 0 = w.val + dj
    omega

/-- Position `k` of the window, of its nine. -/
abbrev pos (k : ℕ) (hk : k < 9) : Fin (⟨4, ![1, 1, 3, 3]⟩ : Shape).numel := ⟨k, by rw [numel_window]; exact hk⟩

/-- The fold's initial value, −∞, is the bottom of the extended reals. -/
theorem init_bot : val_main_v1 (F := Ideal) (Shape.Idx.first h_S_) = ⊥ := by
  rw [val_main_v1_apply, val_main_cst_0_apply]
  simp [Ideal.ofBits, Ideal.ieee]

/-- THE WINDOWED MAXIMUM at pixel (h, w) of image (b, c) is the maximum of the nine framed values around it. -/
theorem localMax_read (X : S16x80x128x128.Idx → EReal) (b : Fin 16) (c : Fin 80) (h w : Fin 128) :
    val_main_v2 (F := Ideal) X (ix4 b c h w) = localMax (fun h' w' => X (ix4 b c h' w')) h.val w.val := by
  unfold val_main_v2 Host.reduceWindow
  dsimp only
  rw [foldl_finRange_nine numel_window]
  refine ((congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) (congrArg₂ (FloatOps.maximumf (F := Ideal) (φ := .f32)) rfl
      (entry_eq _ _ b c h w (pos 0 (by omega)) 0 0 (by omega) (by omega) (by decide) _ _))
      (entry_eq _ _ b c h w (pos 1 (by omega)) 0 1 (by omega) (by omega) (by decide) _ _))
      (entry_eq _ _ b c h w (pos 2 (by omega)) 0 2 (by omega) (by omega) (by decide) _ _))
      (entry_eq _ _ b c h w (pos 3 (by omega)) 1 0 (by omega) (by omega) (by decide) _ _))
      (entry_eq _ _ b c h w (pos 4 (by omega)) 1 1 (by omega) (by omega) (by decide) _ _))
      (entry_eq _ _ b c h w (pos 5 (by omega)) 1 2 (by omega) (by omega) (by decide) _ _))
      (entry_eq _ _ b c h w (pos 6 (by omega)) 2 0 (by omega) (by omega) (by decide) _ _))
      (entry_eq _ _ b c h w (pos 7 (by omega)) 2 1 (by omega) (by omega) (by decide) _ _))
      (entry_eq _ _ b c h w (pos 8 (by omega)) 2 2 (by omega) (by omega) (by decide) _ _))).trans ?_
  rw [init_bot]
  simp only [Ideal.maximumf_def, max_bot_left, padded_read]
  unfold localMax
  simp only [Nat.add_zero]

/-- THE REFERENCE'S RESULT at pixel (h, w) of image (b, c): the pixel where it is its neighbourhood's maximum, zero
    elsewhere. -/
theorem result_read (X : S16x80x128x128.Idx → EReal) (b : Fin 16) (c : Fin 80) (h w : Fin 128) :
    val_main_v4 (F := Ideal) X (ix4 b c h w) = keepPeak (fun h' w' => X (ix4 b c h' w')) h w := by
  rw [val_main_v4_apply, val_main_v3_apply, localMax_read, val_main_call1_v1_apply, val_main_call1_v0_apply,
    val_main_cst_1_apply]
  unfold keepPeak
  simp only [Ideal.ofBits_def, Ideal.ofBits_zero_f32, Ideal.cmpf_def]

/-- So the reference computes `imagePeaks` of its input. -/
theorem result_eq (X : S16x80x128x128.Idx → EReal) : val_main_v4 (F := Ideal) X = imagePeaks X := by
  funext i
  obtain ⟨b, c, h, w, rfl⟩ : ∃ (b : Fin 16) (c : Fin 80) (h w : Fin 128), i = ix4 b c h w :=
    ⟨i 0, i 1, i 2, i 3, eq_ix4 i⟩
  exact result_read X b c h w

end Cert.ReferenceIdeal.Peaks

end
-- ==== Proof.lean ====
/-
  Non-maximum suppression of 16 × 80 heat maps of 128 × 128 pixels: a kernel against its array-library reference,
  over the extended reals.

  Both programs keep a pixel where it equals the maximum of its 3 × 3 neighbourhood, the image framed by zeros, and
  write zero elsewhere (`Cert.Peaks.imagePeaks`, Proof/PeakSpec.lean). The kernel views the input as a stack of 1280
  images and walks it in 32 blocks of 40: per block it zeroes a 40 × 130 × 130 scratch, copies the block into its
  interior, and takes the maximum of nine shifted reads of the scratch (Proof/ScratchFrame.lean: what the block stored
  holds; Proof/KernelPeaks.lean: the blocks tile the stack, and the two reshapes around the call). The reference pads
  the input, takes a 3 × 3 windowed maximum started at −∞, and selects (Proof/RefPeaks.lean). The two maxima are the
  same nine values folded in the same order, the reference's with −∞ in front, which `max` absorbs; no other law of
  the extended reals is used, and finiteness of the input is not needed.

  The three frames are the generated ones (the reference's is its generated run with the result dropped); the
  idealization rewrote nothing, so `preserves` is `True`.
-/
import proofs.«157320_j39049842655966_1_alg».proof.Defs
import proofs.«157320_j39049842655966_1_alg».proof.Proof.Gen.Kernel
import proofs.«157320_j39049842655966_1_alg».proof.Proof.Gen.Kernel.Skeleton
import proofs.«157320_j39049842655966_1_alg».proof.Proof.Gen.Kernel.Launch
import proofs.«157320_j39049842655966_1_alg».proof.Proof.Gen.Kernel.Points
import proofs.«157320_j39049842655966_1_alg».proof.Proof.Gen.Kernel.Frame
import proofs.«157320_j39049842655966_1_alg».proof.Proof.Gen.KernelIdeal
import proofs.«157320_j39049842655966_1_alg».proof.Proof.Gen.KernelIdeal.Skeleton
import proofs.«157320_j39049842655966_1_alg».proof.Proof.Gen.KernelIdeal.Launch
import proofs.«157320_j39049842655966_1_alg».proof.Proof.Gen.KernelIdeal.Points
import proofs.«157320_j39049842655966_1_alg».proof.Proof.Gen.KernelIdeal.Frame
import proofs.«157320_j39049842655966_1_alg».proof.Proof.Gen.ReferenceIdeal
import proofs.«157320_j39049842655966_1_alg».proof.Proof.Gen.Pre_finite_inputs
import proofs.«157320_j39049842655966_1_alg».proof.Proof.Gen.ReferenceIdeal.Run
import proofs.«157320_j39049842655966_1_alg».proof.Proof.Gen.ReferenceIdeal.Read
import proofs.«157320_j39049842655966_1_alg».proof.Proof.KernelPeaks
import proofs.«157320_j39049842655966_1_alg».proof.Proof.RefPeaks
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with `imagePeaks` of it. -/
theorem algebraic : Cert.algebraic_KernelIdeal_ReferenceIdeal := by
  intro m ρ m' ρ' _ hagree
  refine ⟨_, Cert.KernelIdeal.Peaks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Peaks.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
